-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S4x1024x1024 : Shape := ⟨3, ![4, 1024, 1024]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 17
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S4x2048x1024, .bf16⟩
  | .hbm, ⟨13, _⟩ => ⟨S4x2048x1024, .bf16⟩
  | .hbm, ⟨14, _⟩ => ⟨S4x2048x1024, .bf16⟩
  | .hbm, ⟨15, _⟩ => ⟨S4x1024x1024, .f32⟩
  | .hbm, ⟨16, _⟩ => ⟨S4x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x2048x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S1x512x1024, .bf16⟩
  | .local _ .vmem, ⟨18, _⟩ => ⟨S1x512x1024, .bf16⟩
  | .local _ .vmem, ⟨19, _⟩ => ⟨S1x1024x1024, .f32⟩
  | .local _ .vmem, ⟨20, _⟩ => ⟨S1x1024x1024, .f32⟩
  | .local _ .vmem, ⟨21, _⟩ => ⟨S1x512x1024, .f32⟩
  | .local _ .vmem, ⟨22, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S4x2048x1024_S8192x1024 : S4x2048x1024.ShapeCasts S8192x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S1024x1024_S1024x1024_S1024x1024_1_1_0_0_n_n_wf : DotDims.WF S1024x1024 S1024x1024 S1024x1024 [1] [1] [0] [0] [] []
  dot_S2048x1024_S2048x1024_S1024x1024_0_0_1_1_n_n_wf : DotDims.WF S2048x1024 S2048x1024 S1024x1024 [0] [0] [1] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .bf16 = 32 ∨ (Rect.block (s := S8192x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .bf16 = 32 ∨ (Rect.block (s := S8192x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x1024.size a
  hwx0_6 : ∀ i : grid0.Coords, EltTy.bits .bf16 = 32 ∨ (Rect.block (s := S8192x1024) S1024x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S4x2048x1024.size a
  hwx1_0 : ∀ i : grid1.Coords, EltTy.bits .bf16 = 32 ∨ (Rect.block (s := S4x2048x1024) S1x2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x1024x1024.size a
  hwx1_2 : ∀ i : grid1.Coords, EltTy.bits .f32 = 32 ∨ (Rect.block (s := S4x1024x1024) S1x1024x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S4x2048x1024.size a
  hwx2_0 : ∀ i : grid2.Coords, EltTy.bits .bf16 = 32 ∨ (Rect.block (s := S4x2048x1024) S1x512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x1024.size a ≤ S4x1024x1024.size a
  hwx2_1 : ∀ i : grid2.Coords, EltTy.bits .f32 = 32 ∨ (Rect.block (s := S4x1024x1024) S1x1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x1024.size a ≤ S4x2048x1024.size a
  hwx2_2 : ∀ i : grid2.Coords, EltTy.bits .f32 = 32 ∨ (Rect.block (s := S4x2048x1024) S1x512x1024.size (cc2_transform_2 i) (hinb2_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S2048x1024_S2048x1024_S1024x1024_0_0_1_1_n_n : DotDims S2048x1024 S2048x1024 S1024x1024 where
  lhsContracting := [0]
  rhsContracting := [0]
  lhsNonContracting := [1]
  rhsNonContracting := [1]
  lhsBatch := []
  rhsBatch := []
  wf := dot_S2048x1024_S2048x1024_S1024x1024_0_0_1_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_2) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v7) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1x1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S_ : Shape := ⟨0, ![]⟩
abbrev S4x2048x2048 : Shape := ⟨3, ![4, 2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
/-
  The mathematics of the two programs, as functions of whole arrays read index by index over the
  extended reals.

  A token array is indexed (batch, position, feature); a weight is stored (out, in), so a projection
  is `y[b,s,e] = Σ_d x[b,s,d] · w[e,d]`. One program forms, per batch, the feature-by-feature matrix
  `G[b,d,e] = Σ_s k[b,s,d] · v[b,s,e]` and then `(Σ_d q[b,s,d] · G[b,d,e]) · c`; the other forms
  the position-by-position scores `(Σ_d q[b,s,d] · k[b,t,d]) · c'` and then
  `Σ_t score[b,s,t] · v[b,t,e]`. The two are the same triple sum in a different order.
-/
import Idealize.ShloMosaic.PureOps.Ideal
import Idealize.ShloMosaic.Lib.ValueIdx

noncomputable section

namespace Cert.LinAttn

open Idealize.ShloMosaic Idealize.ShloMosaic.ValueIdx

/-- (batch, position, feature). -/
abbrev Tok : Shape := ⟨3, ![4, 2048, 1024]⟩
/-- (out feature, in feature). -/
abbrev Wt : Shape := ⟨2, ![1024, 1024]⟩
/-- (batch · 2048 + position, feature): the token array with its two leading axes merged. -/
abbrev Flat : Shape := ⟨2, ![8192, 1024]⟩
/-- (batch, feature, feature). -/
abbrev Gram : Shape := ⟨3, ![4, 1024, 1024]⟩
/-- (batch, position, position). -/
abbrev Score : Shape := ⟨3, ![4, 2048, 2048]⟩

/-- The projection `y[b,s,e] = Σ_d x[b,s,d] · w[e,d]`. -/
def proj (x : Tok.Idx → EReal) (w : Wt.Idx → EReal) : Tok.Idx → EReal :=
  fun i => ∑ d : Fin 1024, x (ix3 (i 0) (i 1) d) * w (ix2 (i 2) d)

/-- The same on the merged array: `y[r,e] = Σ_d x[r,d] · w[e,d]`. -/
def projFlat (x : Flat.Idx → EReal) (w : Wt.Idx → EReal) : Flat.Idx → EReal :=
  fun j => ∑ d : Fin 1024, x (ix2 (j 0) d) * w (ix2 (j 1) d)

/-- Per batch, `G[b,d,e] = Σ_s k[b,s,d] · v[b,s,e]`. -/
def gram (k v : Tok.Idx → EReal) : Gram.Idx → EReal :=
  fun j => ∑ s : Fin 2048, k (ix3 (j 0) s (j 1)) * v (ix3 (j 0) s (j 2))

/-- `out[b,s,e] = (Σ_d q[b,s,d] · G[b,d,e]) · c`. -/
def applyGram (q : Tok.Idx → EReal) (G : Gram.Idx → EReal) (c : EReal) : Tok.Idx → EReal :=
  fun i => (∑ d : Fin 1024, q (ix3 (i 0) (i 1) d) * G (ix3 (i 0) d (i 2))) * c

/-- `score[b,s,t] = (Σ_d q[b,s,d] · k[b,t,d]) · c`. -/
def score (q k : Tok.Idx → EReal) (c : EReal) : Score.Idx → EReal :=
  fun i => (∑ d : Fin 1024, q (ix3 (i 0) (i 1) d) * k (ix3 (i 0) (i 2) d)) * c

/-- `out[b,s,e] = Σ_t sc[b,s,t] · v[b,t,e]`. -/
def applyScore (sc : Score.Idx → EReal) (v : Tok.Idx → EReal) : Tok.Idx → EReal :=
  fun i => ∑ t : Fin 2048, sc (ix3 (i 0) (i 1) t) * v (ix3 (i 0) t (i 2))

/-- The first program's result: projections, the per-batch feature matrix, then its product with the queries, scaled. -/
def viaGram (x : Tok.Idx → EReal) (wq wk wv : Wt.Idx → EReal) (c : EReal) : Tok.Idx → EReal :=
  applyGram (proj x wq) (gram (proj x wk) (proj x wv)) c

/-- The second program's result: projections, the scaled scores, then their product with the values. -/
def viaScore (x : Tok.Idx → EReal) (wq wk wv : Wt.Idx → EReal) (c : EReal) : Tok.Idx → EReal :=
  applyScore (score (proj x wq) (proj x wk) c) (proj x wv)

end Cert.LinAttn

end
-- ==== Proof.Region0.lean ====
import proofs.«130731_j87857851007669_1_alg».proof.Proof.Gen.KernelIdeal.Frame
import proofs.«130731_j87857851007669_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.LinAttn
open Cert.KernelIdeal.Facts₀ Cert.KernelIdeal.Facts

/-! ## The matrix product of a token block with a weight, at an index -/

/-- The left operand's row is the output's row. -/
theorem lhs_dot_0 (i : S1024x1024.Idx) (q : Cert.KernelIdeal.dot_S1024x1024_S1024x1024_S1024x1024_1_1_0_0_n_n.contr.Idx) :
    (Cert.KernelIdeal.dot_S1024x1024_S1024x1024_S1024x1024_1_1_0_0_n_n.lhsIdx i q 0).val = (i 0).val := by
  unfold DotDims.lhsIdx
  rw [dif_neg (show ¬(0 : Fin S1024x1024.rank) ∈ Cert.KernelIdeal.dot_S1024x1024_S1024x1024_S1024x1024_1_1_0_0_n_n.lhsBatch by decide), dif_pos (show (0 : Fin S1024x1024.rank) ∈ Cert.KernelIdeal.dot_S1024x1024_S1024x1024_S1024x1024_1_1_0_0_n_n.lhsNonContracting by decide)]
  rfl
/-- The left operand's column is the summation index. -/
theorem lhs_dot_1 (i : S1024x1024.Idx) (q : Cert.KernelIdeal.dot_S1024x1024_S1024x1024_S1024x1024_1_1_0_0_n_n.contr.Idx) :
    (Cert.KernelIdeal.dot_S1024x1024_S1024x1024_S1024x1024_1_1_0_0_n_n.lhsIdx i q 1).val = (q ⟨0, by decide⟩).val :=
  Cert.KernelIdeal.dot_S1024x1024_S1024x1024_S1024x1024_1_1_0_0_n_n.lhsIdx_val_of_single rfl i q
/-- The right operand's row is the output's column. -/
theorem rhs_dot_0 (i : S1024x1024.Idx) (q : Cert.KernelIdeal.dot_S1024x1024_S1024x1024_S1024x1024_1_1_0_0_n_n.contr.Idx) :
    (Cert.KernelIdeal.dot_S1024x1024_S1024x1024_S1024x1024_1_1_0_0_n_n.rhsIdx i q 0).val = (i 1).val := by
  unfold DotDims.rhsIdx
  rw [dif_neg (show ¬(0 : Fin S1024x1024.rank) ∈ Cert.KernelIdeal.dot_S1024x1024_S1024x1024_S1024x1024_1_1_0_0_n_n.rhsBatch by decide), dif_pos (show (0 : Fin S1024x1024.rank) ∈ Cert.KernelIdeal.dot_S1024x1024_S1024x1024_S1024x1024_1_1_0_0_n_n.rhsNonContracting by decide)]
  rfl
/-- The right operand's column is the summation index. -/
theorem rhs_dot_1 (i : S1024x1024.Idx) (q : Cert.KernelIdeal.dot_S1024x1024_S1024x1024_S1024x1024_1_1_0_0_n_n.contr.Idx) :
    (Cert.KernelIdeal.dot_S1024x1024_S1024x1024_S1024x1024_1_1_0_0_n_n.rhsIdx i q 1).val = (q ⟨0, by decide⟩).val :=
  Cert.KernelIdeal.dot_S1024x1024_S1024x1024_S1024x1024_1_1_0_0_n_n.rhsIdx_val_of_single rfl i q

/-- Row `p`, column `e` of the product of a block `x` with a weight `w` stored (out, in), accumulated into zero:
    `Σ_d x[p,d] · w[e,d]`. -/
theorem matmul_at (x w : FVec Ideal S1024x1024 .bf16) (p e : Fin 1024) :
    matmul (F := Ideal) Cert.KernelIdeal.dot_S1024x1024_S1024x1024_S1024x1024_1_1_0_0_n_n none x w (constant (F := Ideal) S1024x1024 .f32 0x00000000#32) (ix2 p e)
      = ∑ d : Fin 1024, x (ix2 p d) * w (ix2 e d) := by
  simp only [matmul]
  rw [Ideal.matmul_constant_zero_apply, ← Equiv.sum_comp (ValueIdx.contrEquiv1 Cert.KernelIdeal.dot_S1024x1024_S1024x1024_S1024x1024_1_1_0_0_n_n 1024 rfl rfl).symm]
  refine Finset.sum_congr rfl fun k _ => ?_
  have hk := ValueIdx.contrEquiv1_symm_val Cert.KernelIdeal.dot_S1024x1024_S1024x1024_S1024x1024_1_1_0_0_n_n 1024 rfl rfl k
  have el : Cert.KernelIdeal.dot_S1024x1024_S1024x1024_S1024x1024_1_1_0_0_n_n.lhsIdx (ix2 p e) ((ValueIdx.contrEquiv1 Cert.KernelIdeal.dot_S1024x1024_S1024x1024_S1024x1024_1_1_0_0_n_n 1024 rfl rfl).symm k) = ix2 p k := funext fun a => Fin.ext (by
    match a with
    | ⟨0, _⟩ => exact lhs_dot_0 _ _
    | ⟨1, _⟩ => exact (lhs_dot_1 _ _).trans hk)
  have er : Cert.KernelIdeal.dot_S1024x1024_S1024x1024_S1024x1024_1_1_0_0_n_n.rhsIdx (ix2 p e) ((ValueIdx.contrEquiv1 Cert.KernelIdeal.dot_S1024x1024_S1024x1024_S1024x1024_1_1_0_0_n_n 1024 rfl rfl).symm k) = ix2 e k := funext fun a => Fin.ext (by
    match a with
    | ⟨0, _⟩ => exact rhs_dot_0 _ _
    | ⟨1, _⟩ => exact (rhs_dot_1 _ _).trans hk)
  rw [el, er]

/-- The three payloads of the body are that product of the token block with each weight (the change of float
    format and the casts between equal shapes change nothing at the extended reals). -/
theorem pay2_at (x w : Vec Ideal S1024x1024 .bf16) (p e : Fin 1024) :
    k0_pay2 (F := Ideal) x w (ix2 p e) = ∑ d : Fin 1024, x (ix2 p d) * w (ix2 e d) := by
  unfold k0_pay2 k0_pay1
  rw [ValueIdx.truncf_apply, shapeCast_self, shapeCast_self]
  exact matmul_at x w p e
theorem pay3_at (x w : Vec Ideal S1024x1024 .bf16) (p e : Fin 1024) :
    k0_pay3 (F := Ideal) x w (ix2 p e) = ∑ d : Fin 1024, x (ix2 p d) * w (ix2 e d) := by
  unfold k0_pay3 k0_pay1
  rw [ValueIdx.truncf_apply, shapeCast_self, shapeCast_self]
  exact matmul_at x w p e
theorem pay4_at (x w : Vec Ideal S1024x1024 .bf16) (p e : Fin 1024) :
    k0_pay4 (F := Ideal) x w (ix2 p e) = ∑ d : Fin 1024, x (ix2 p d) * w (ix2 e d) := by
  unfold k0_pay4 k0_pay1
  rw [ValueIdx.truncf_apply, shapeCast_self, shapeCast_self]
  exact matmul_at x w p e

-- the contents of the TensorCore's buffers when the region is entered
variable (V : (c : Dev nD) → (b : Ref sig .tc) → Buf (Elt Ideal) ((c : Thread nD τ).loc b))

/-! ## The blocks the grid's points read and write -/

/-- The zero offset, as the constant function. -/
theorem hz : (![0, 0] : Fin 2 → Nat) = fun _ => 0 := funext fun a => by fin_cases a <;> rfl

/-- Point `t` reads block row `t` of the tokens and the whole of each weight, and writes block row `t` of each
    of the three results: the index maps, evaluated over the eight points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Every block row is some point's. -/
theorem point_of_row : ∀ q : Fin 8, ∃ t : Fin cfg0.N, t.val = q.val :=
  (by decide +kernel : ∀ q : Fin 8, ∃ t : Fin grid0.N, t.val = q.val)

/-- The token window's block at point `t` is rows `1024·t … 1024·t + 1023` of the merged token array. -/
theorem tok_blk (c : Dev nD) (t : Fin cfg0.N) (p d : Fin 1024) (r : Fin 8192) (hr : r.val = 1024 * t.val + p.val) :
    (iblk0 V c 0 t : Vec Ideal S1024x1024 .bf16) (ix2 p d) = (V c main_v1 : S8192x1024.Idx → EReal) (ix2 r d) := by
  obtain ⟨e0, e1, -⟩ := idx_facts t
  unfold iblk0
  rw [View.read_apply]
  show V c main_v1 _ = V c main_v1 _
  congr 1
  funext a
  apply Fin.ext
  match a with
  | ⟨0, _⟩ => show win0_0.index t (0 : Fin 2) * 1024 + 1 * p.val = r.val; omega
  | ⟨1, _⟩ => show win0_0.index t (1 : Fin 2) * 1024 + 1 * d.val = d.val; omega

/-- The first weight's window holds the whole weight at every point. -/
theorem wq_blk (c : Dev nD) (t : Fin cfg0.N) (e d : Fin 1024) :
    (iblk0 V c 1 t : Vec Ideal S1024x1024 .bf16) (ix2 e d) = (V c main_v2 : S1024x1024.Idx → EReal) (ix2 e d) := by
  obtain ⟨-, -, e0, e1, -⟩ := idx_facts t
  unfold iblk0
  rw [View.read_apply]
  show V c main_v2 _ = V c main_v2 _
  congr 1
  funext a
  apply Fin.ext
  match a with
  | ⟨0, _⟩ => show win0_1.index t (0 : Fin 2) * 1024 + 1 * e.val = e.val; omega
  | ⟨1, _⟩ => show win0_1.index t (1 : Fin 2) * 1024 + 1 * d.val = d.val; omega

/-- The second weight's window holds the whole weight at every point. -/
theorem wk_blk (c : Dev nD) (t : Fin cfg0.N) (e d : Fin 1024) :
    (iblk0 V c 2 t : Vec Ideal S1024x1024 .bf16) (ix2 e d) = (V c main_v3 : S1024x1024.Idx → EReal) (ix2 e d) := by
  obtain ⟨-, -, -, -, e0, e1, -⟩ := idx_facts t
  unfold iblk0
  rw [View.read_apply]
  show V c main_v3 _ = V c main_v3 _
  congr 1
  funext a
  apply Fin.ext
  match a with
  | ⟨0, _⟩ => show win0_2.index t (0 : Fin 2) * 1024 + 1 * e.val = e.val; omega
  | ⟨1, _⟩ => show win0_2.index t (1 : Fin 2) * 1024 + 1 * d.val = d.val; omega

/-- The third weight's window holds the whole weight at every point. -/
theorem wv_blk (c : Dev nD) (t : Fin cfg0.N) (e d : Fin 1024) :
    (iblk0 V c 3 t : Vec Ideal S1024x1024 .bf16) (ix2 e d) = (V c main_v4 : S1024x1024.Idx → EReal) (ix2 e d) := by
  obtain ⟨-, -, -, -, -, -, e0, e1, -⟩ := idx_facts t
  unfold iblk0
  rw [View.read_apply]
  show V c main_v4 _ = V c main_v4 _
  congr 1
  funext a
  apply Fin.ext
  match a with
  | ⟨0, _⟩ => show win0_3.index t (0 : Fin 2) * 1024 + 1 * e.val = e.val; omega
  | ⟨1, _⟩ => show win0_3.index t (1 : Fin 2) * 1024 + 1 * d.val = d.val; omega

/-! ## The first result: the tokens projected by the first weight -/

/-- What point `t` writes back to the first result is block row `t` of the projection by the first weight. -/
theorem flushed4_eq (c : Dev nD) (t : Fin cfg0.N) :
    (dat0 (F := Ideal) V c).flushed 4 t = ((cfg0.win 4).blk t).view.read (Elt Ideal) (projFlat (V c main_v1) (V c main_v2)) := by
  show (cfg0.win 4).cut (grid0.coords t) ((dat0 V c).after 4 t) = _
  rw [after0_4]
  unfold out0_4
  rw [View.canon_unit_zero hz]
  simp only [View.ld_unit_zero (S := S1024x1024) hz]
  obtain ⟨-, -, -, -, -, -, -, -, e0, e1, -⟩ := idx_facts t
  funext y
  have hx : (win0 4).xinj (grid0.coords t) y = ix2 (⟨(y 0).val, (y 0).isLt⟩ : Fin 1024) (⟨(y 1).val, (y 1).isLt⟩ : Fin 1024) :=
    funext fun a => by match a with | ⟨0, _⟩ => rfl | ⟨1, _⟩ => rfl
  refine (congrArg (k0_pay2 (F := Ideal) (iblk0 V c 0 t) (iblk0 V c 1 t)) hx).trans ?_
  refine (pay2_at (iblk0 V c 0 t) (iblk0 V c 1 t) _ _).trans ?_
  rw [View.read_apply]
  unfold projFlat
  refine Finset.sum_congr rfl fun d _ => ?_
  have h1 : (⟨(y 1).val, (y 1).isLt⟩ : Fin 1024) = ((View.whole main_v5_0).slice ((win0 4).rect t)).emb y 1 :=
    Fin.ext (by show (y 1).val = win0_4.index t (1 : Fin 2) * 1024 + 1 * (y 1).val; omega)
  rw [tok_blk V c t _ d (((View.whole main_v5_0).slice ((win0 4).rect t)).emb y 0) (by
      show win0_4.index t (0 : Fin 2) * 1024 + 1 * (y 0).val = 1024 * t.val + (y 0).val; omega),
    wq_blk V c t _ d, h1]

/-- An index of the first result lies in point `t`'s block iff each coordinate is in the block's range on its axis. -/
theorem mem_blk4 (t : Fin cfg0.N) (i : S8192x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v5_0).slice (win0_4.rect t)).set ↔ _
  rw [View.set_slice_whole, Rect.mem_set_unit]
  exact Iff.rfl

/-- The eight blocks of 1024 rows tile the first result: row `r` lies in the block of point `r / 1024`. -/
theorem cover4 (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, ht⟩ := point_of_row ⟨(i 0).val / 1024, by omega⟩
  have ht' : t.val = (i 0).val / 1024 := ht
  obtain ⟨-, -, -, -, -, -, -, -, e0, e1, -⟩ := idx_facts t
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- The first result array after the region: every row of the merged tokens projected by the first weight. -/
theorem arr_q (c : Dev nD) : (dat0 (F := Ideal) V c).arrAt 4 cfg0.N = projFlat (V c main_v1) (V c main_v2) :=
  (dat0 (F := Ideal) V c).arrAt_eq_of_cover 4 _ (fun t _ => flushed4_eq V c t) (cover4)

/-! ## The second result: the tokens projected by the second weight -/

/-- What point `t` writes back to the second result is block row `t` of the projection by the second weight. -/
theorem flushed5_eq (c : Dev nD) (t : Fin cfg0.N) :
    (dat0 (F := Ideal) V c).flushed 5 t = ((cfg0.win 5).blk t).view.read (Elt Ideal) (projFlat (V c main_v1) (V c main_v3)) := by
  show (cfg0.win 5).cut (grid0.coords t) ((dat0 V c).after 5 t) = _
  rw [after0_5]
  unfold out0_5
  rw [View.canon_unit_zero hz]
  simp only [View.ld_unit_zero (S := S1024x1024) hz]
  obtain ⟨-, -, -, -, -, -, -, -, -, -, e0, e1, -⟩ := idx_facts t
  funext y
  have hx : (win0 5).xinj (grid0.coords t) y = ix2 (⟨(y 0).val, (y 0).isLt⟩ : Fin 1024) (⟨(y 1).val, (y 1).isLt⟩ : Fin 1024) :=
    funext fun a => by match a with | ⟨0, _⟩ => rfl | ⟨1, _⟩ => rfl
  refine (congrArg (k0_pay3 (F := Ideal) (iblk0 V c 0 t) (iblk0 V c 2 t)) hx).trans ?_
  refine (pay3_at (iblk0 V c 0 t) (iblk0 V c 2 t) _ _).trans ?_
  rw [View.read_apply]
  unfold projFlat
  refine Finset.sum_congr rfl fun d _ => ?_
  have h1 : (⟨(y 1).val, (y 1).isLt⟩ : Fin 1024) = ((View.whole main_v5_1).slice ((win0 5).rect t)).emb y 1 :=
    Fin.ext (by show (y 1).val = win0_5.index t (1 : Fin 2) * 1024 + 1 * (y 1).val; omega)
  rw [tok_blk V c t _ d (((View.whole main_v5_1).slice ((win0 5).rect t)).emb y 0) (by
      show win0_5.index t (0 : Fin 2) * 1024 + 1 * (y 0).val = 1024 * t.val + (y 0).val; omega),
    wk_blk V c t _ d, h1]

/-- An index of the second result lies in point `t`'s block iff each coordinate is in the block's range on its axis. -/
theorem mem_blk5 (t : Fin cfg0.N) (i : S8192x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v5_1).slice (win0_5.rect t)).set ↔ _
  rw [View.set_slice_whole, Rect.mem_set_unit]
  exact Iff.rfl

/-- The eight blocks of 1024 rows tile the second result: row `r` lies in the block of point `r / 1024`. -/
theorem cover5 (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  obtain ⟨t, ht⟩ := point_of_row ⟨(i 0).val / 1024, by omega⟩
  have ht' : t.val = (i 0).val / 1024 := ht
  obtain ⟨-, -, -, -, -, -, -, -, -, -, e0, e1, -⟩ := idx_facts t
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- The second result array after the region: every row of the merged tokens projected by the second weight. -/
theorem arr_k (c : Dev nD) : (dat0 (F := Ideal) V c).arrAt 5 cfg0.N = projFlat (V c main_v1) (V c main_v3) :=
  (dat0 (F := Ideal) V c).arrAt_eq_of_cover 5 _ (fun t _ => flushed5_eq V c t) (cover5)

/-! ## The third result: the tokens projected by the third weight -/

/-- What point `t` writes back to the third result is block row `t` of the projection by the third weight. -/
theorem flushed6_eq (c : Dev nD) (t : Fin cfg0.N) :
    (dat0 (F := Ideal) V c).flushed 6 t = ((cfg0.win 6).blk t).view.read (Elt Ideal) (projFlat (V c main_v1) (V c main_v4)) := by
  show (cfg0.win 6).cut (grid0.coords t) ((dat0 V c).after 6 t) = _
  rw [after0_6]
  unfold out0_6
  rw [View.canon_unit_zero hz]
  simp only [View.ld_unit_zero (S := S1024x1024) hz]
  obtain ⟨-, -, -, -, -, -, -, -, -, -, -, -, e0, e1⟩ := idx_facts t
  funext y
  have hx : (win0 6).xinj (grid0.coords t) y = ix2 (⟨(y 0).val, (y 0).isLt⟩ : Fin 1024) (⟨(y 1).val, (y 1).isLt⟩ : Fin 1024) :=
    funext fun a => by match a with | ⟨0, _⟩ => rfl | ⟨1, _⟩ => rfl
  refine (congrArg (k0_pay4 (F := Ideal) (iblk0 V c 0 t) (iblk0 V c 3 t)) hx).trans ?_
  refine (pay4_at (iblk0 V c 0 t) (iblk0 V c 3 t) _ _).trans ?_
  rw [View.read_apply]
  unfold projFlat
  refine Finset.sum_congr rfl fun d _ => ?_
  have h1 : (⟨(y 1).val, (y 1).isLt⟩ : Fin 1024) = ((View.whole main_v5_2).slice ((win0 6).rect t)).emb y 1 :=
    Fin.ext (by show (y 1).val = win0_6.index t (1 : Fin 2) * 1024 + 1 * (y 1).val; omega)
  rw [tok_blk V c t _ d (((View.whole main_v5_2).slice ((win0 6).rect t)).emb y 0) (by
      show win0_6.index t (0 : Fin 2) * 1024 + 1 * (y 0).val = 1024 * t.val + (y 0).val; omega),
    wv_blk V c t _ d, h1]

/-- An index of the third result lies in point `t`'s block iff each coordinate is in the block's range on its axis. -/
theorem mem_blk6 (t : Fin cfg0.N) (i : S8192x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v5_2).slice (win0_6.rect t)).set ↔ _
  rw [View.set_slice_whole, Rect.mem_set_unit]
  exact Iff.rfl

/-- The eight blocks of 1024 rows tile the third result: row `r` lies in the block of point `r / 1024`. -/
theorem cover6 (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  obtain ⟨t, ht⟩ := point_of_row ⟨(i 0).val / 1024, by omega⟩
  have ht' : t.val = (i 0).val / 1024 := ht
  obtain ⟨-, -, -, -, -, -, -, -, -, -, -, -, e0, e1⟩ := idx_facts t
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

/-- The third result array after the region: every row of the merged tokens projected by the third weight. -/
theorem arr_v (c : Dev nD) : (dat0 (F := Ideal) V c).arrAt 6 cfg0.N = projFlat (V c main_v1) (V c main_v4) :=
  (dat0 (F := Ideal) V c).arrAt_eq_of_cover 6 _ (fun t _ => flushed6_eq V c t) (cover6)

end Cert.KernelIdeal.Region0

end
-- ==== Proof.Region1.lean ====
import proofs.«130731_j87857851007669_1_alg».proof.Proof.Gen.KernelIdeal.Frame
import proofs.«130731_j87857851007669_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.LinAttn
open Cert.KernelIdeal.Facts₀ Cert.KernelIdeal.Facts

-- the contents of the TensorCore's buffers when the region is entered
variable (V : (c : Dev nD) → (b : Ref sig .tc) → Buf (Elt Ideal) ((c : Thread nD τ).loc b))

/-! ## The body's arithmetic at an index

The body casts the two [1, 2048, 1024] blocks to [2048, 1024], contracts their row axes against each other and
casts the [1024, 1024] product back to [1, 1024, 1024]: entry (0, d, e) is the sum over the 2048 rows `s` of
`k (0, s, d) · v (0, s, e)`. -/

theorem lhs_ktv_0 (i : S1024x1024.Idx) (q : Cert.KernelIdeal.dot_S2048x1024_S2048x1024_S1024x1024_0_0_1_1_n_n.contr.Idx) :
    (Cert.KernelIdeal.dot_S2048x1024_S2048x1024_S1024x1024_0_0_1_1_n_n.lhsIdx i q 0).val = (q ⟨0, by decide⟩).val :=
  Cert.KernelIdeal.dot_S2048x1024_S2048x1024_S1024x1024_0_0_1_1_n_n.lhsIdx_val_of_single rfl i q
theorem lhs_ktv_1 (i : S1024x1024.Idx) (q : Cert.KernelIdeal.dot_S2048x1024_S2048x1024_S1024x1024_0_0_1_1_n_n.contr.Idx) :
    (Cert.KernelIdeal.dot_S2048x1024_S2048x1024_S1024x1024_0_0_1_1_n_n.lhsIdx i q 1).val = (i 0).val := by
  unfold DotDims.lhsIdx
  rw [dif_neg (show ¬(1 : Fin S2048x1024.rank) ∈ Cert.KernelIdeal.dot_S2048x1024_S2048x1024_S1024x1024_0_0_1_1_n_n.lhsBatch by decide), dif_pos (show (1 : Fin S2048x1024.rank) ∈ Cert.KernelIdeal.dot_S2048x1024_S2048x1024_S1024x1024_0_0_1_1_n_n.lhsNonContracting by decide)]
  rfl
theorem rhs_ktv_0 (i : S1024x1024.Idx) (q : Cert.KernelIdeal.dot_S2048x1024_S2048x1024_S1024x1024_0_0_1_1_n_n.contr.Idx) :
    (Cert.KernelIdeal.dot_S2048x1024_S2048x1024_S1024x1024_0_0_1_1_n_n.rhsIdx i q 0).val = (q ⟨0, by decide⟩).val :=
  Cert.KernelIdeal.dot_S2048x1024_S2048x1024_S1024x1024_0_0_1_1_n_n.rhsIdx_val_of_single rfl i q
theorem rhs_ktv_1 (i : S1024x1024.Idx) (q : Cert.KernelIdeal.dot_S2048x1024_S2048x1024_S1024x1024_0_0_1_1_n_n.contr.Idx) :
    (Cert.KernelIdeal.dot_S2048x1024_S2048x1024_S1024x1024_0_0_1_1_n_n.rhsIdx i q 1).val = (i 1).val := by
  unfold DotDims.rhsIdx
  rw [dif_neg (show ¬(1 : Fin S2048x1024.rank) ∈ Cert.KernelIdeal.dot_S2048x1024_S2048x1024_S1024x1024_0_0_1_1_n_n.rhsBatch by decide), dif_pos (show (1 : Fin S2048x1024.rank) ∈ Cert.KernelIdeal.dot_S2048x1024_S2048x1024_S1024x1024_0_0_1_1_n_n.rhsNonContracting by decide)]
  rfl

/-- The product of the two cast blocks at (d, e). -/
theorem ktv_apply (a b : FVec Ideal S2048x1024 .bf16) (d e : Fin 1024) :
    matmul (F := Ideal) Cert.KernelIdeal.dot_S2048x1024_S2048x1024_S1024x1024_0_0_1_1_n_n none a b (constant (F := Ideal) S1024x1024 .f32 0x00000000#32) (ix2 d e)
      = ∑ s : Fin 2048, a (ix2 s d) * b (ix2 s e) := by
  simp only [matmul]
  rw [Ideal.matmul_constant_zero_apply, ← Equiv.sum_comp (ValueIdx.contrEquiv1 Cert.KernelIdeal.dot_S2048x1024_S2048x1024_S1024x1024_0_0_1_1_n_n 2048 rfl rfl).symm]
  refine Finset.sum_congr rfl fun k _ => ?_
  have hk := ValueIdx.contrEquiv1_symm_val Cert.KernelIdeal.dot_S2048x1024_S2048x1024_S1024x1024_0_0_1_1_n_n 2048 rfl rfl k
  have el : Cert.KernelIdeal.dot_S2048x1024_S2048x1024_S1024x1024_0_0_1_1_n_n.lhsIdx (ix2 d e) ((ValueIdx.contrEquiv1 Cert.KernelIdeal.dot_S2048x1024_S2048x1024_S1024x1024_0_0_1_1_n_n 2048 rfl rfl).symm k) = ix2 k d := funext fun a => Fin.ext (by
    match a with
    | ⟨0, _⟩ => exact (lhs_ktv_0 _ _).trans hk
    | ⟨1, _⟩ => exact lhs_ktv_1 _ _)
  have er : Cert.KernelIdeal.dot_S2048x1024_S2048x1024_S1024x1024_0_0_1_1_n_n.rhsIdx (ix2 d e) ((ValueIdx.contrEquiv1 Cert.KernelIdeal.dot_S2048x1024_S2048x1024_S1024x1024_0_0_1_1_n_n 2048 rfl rfl).symm k) = ix2 k e := funext fun a => Fin.ext (by
    match a with
    | ⟨0, _⟩ => exact (rhs_ktv_0 _ _).trans hk
    | ⟨1, _⟩ => exact rhs_ktv_1 _ _)
  rw [el, er]

/-- The payload at (0, d, e). -/
theorem pay_apply (x0 x1 : Vec Ideal S1x2048x1024 .bf16) (d e : Fin 1024) :
    k1_pay1 (F := Ideal) x0 x1 (ix3 (0 : Fin 1) d e) = ∑ s : Fin 2048, x0 (ix3 (0 : Fin 1) s d) * x1 (ix3 (0 : Fin 1) s e) := by
  unfold k1_pay1
  rw [shapeCast_apply _ Facts₀.shapeCasts_S1024x1024_S1x1024x1024 (ix3 (0 : Fin 1) d e) (ix2 d e) (by
    rw [Shape.rowMajor_val_two, Shape.rowMajor_val_three]; show d.val * 1024 + e.val = ((0 : Fin 1).val * 1024 + d.val) * 1024 + e.val; simp)]
  rw [ktv_apply]
  refine Finset.sum_congr rfl fun s _ => ?_
  rw [shapeCast_apply x0 Facts₀.shapeCasts_S1x2048x1024_S2048x1024 (ix2 s d) (ix3 (0 : Fin 1) s d) (by
      rw [Shape.rowMajor_val_two, Shape.rowMajor_val_three]; show ((0 : Fin 1).val * 2048 + s.val) * 1024 + d.val = s.val * 1024 + d.val; simp),
    shapeCast_apply x1 Facts₀.shapeCasts_S1x2048x1024_S2048x1024 (ix2 s e) (ix3 (0 : Fin 1) s e) (by
      rw [Shape.rowMajor_val_two, Shape.rowMajor_val_three]; show ((0 : Fin 1).val * 2048 + s.val) * 1024 + e.val = s.val * 1024 + e.val; simp)]

theorem hz3 : (![0, 0, 0] : Fin 3 → Nat) = fun _ => 0 := funext fun a => by fin_cases a <;> rfl

/-- The index maps over the grid: all three windows sit at block (b, 0, 0) at point b. -/
theorem idx_facts : ∀ t : Fin cfg1.N,
    win1_0.index t (0 : Fin 3) = win1_2.index t (0 : Fin 3) ∧ win1_0.index t (1 : Fin 3) = 0 ∧ win1_0.index t (2 : Fin 3) = 0
    ∧ win1_1.index t (0 : Fin 3) = win1_2.index t (0 : Fin 3) ∧ win1_1.index t (1 : Fin 3) = 0 ∧ win1_1.index t (2 : Fin 3) = 0
    ∧ win1_2.index t (1 : Fin 3) = 0 ∧ win1_2.index t (2 : Fin 3) = 0 ∧ win1_2.index t (0 : Fin 3) ≤ 3 :=
  (by decide +kernel : ∀ t : Fin grid1.N, _)

/-- Every batch is some point's. -/
theorem idx_onto : ∀ q : Fin 4, ∃ t : Fin cfg1.N, win1_2.index t = ![q.val, 0, 0] :=
  (by decide +kernel : ∀ q : Fin 4, ∃ t : Fin grid1.N, win1_2.index t = ![q.val, 0, 0])

/-- The first input block at (0, s, d) is the array at (b, s, d), `b` the point's batch. -/
theorem kblk_apply (c : Dev nD) (t : Fin cfg1.N) (b : Fin 4) (hb : win1_2.index t (0 : Fin 3) = b.val) (s : Fin 2048) (d : Fin 1024) :
    (iblk1 V c 0 t : Vec Ideal S1x2048x1024 .bf16) (ix3 (0 : Fin 1) s d) = (V c main_v7 : S4x2048x1024.Idx → EReal) (ix3 b s d) := by
  obtain ⟨e0, e1, e2, -⟩ := idx_facts t
  unfold iblk1
  rw [View.read_apply]
  show V c main_v7 _ = V c main_v7 _
  congr 1
  funext a
  apply Fin.ext
  match a with
  | ⟨0, _⟩ => show win1_0.index t (0 : Fin 3) * 1 + 1 * (0 : Fin 1).val = b.val; rw [e0, hb]; simp
  | ⟨1, _⟩ => show win1_0.index t (1 : Fin 3) * 2048 + 1 * s.val = s.val; rw [e1]; omega
  | ⟨2, _⟩ => show win1_0.index t (2 : Fin 3) * 1024 + 1 * d.val = d.val; rw [e2]; omega

/-- The second input block likewise. -/
theorem vblk_apply (c : Dev nD) (t : Fin cfg1.N) (b : Fin 4) (hb : win1_2.index t (0 : Fin 3) = b.val) (s : Fin 2048) (d : Fin 1024) :
    (iblk1 V c 1 t : Vec Ideal S1x2048x1024 .bf16) (ix3 (0 : Fin 1) s d) = (V c main_v8 : S4x2048x1024.Idx → EReal) (ix3 b s d) := by
  obtain ⟨-, -, -, e0, e1, e2, -⟩ := idx_facts t
  unfold iblk1
  rw [View.read_apply]
  show V c main_v8 _ = V c main_v8 _
  congr 1
  funext a
  apply Fin.ext
  match a with
  | ⟨0, _⟩ => show win1_1.index t (0 : Fin 3) * 1 + 1 * (0 : Fin 1).val = b.val; rw [e0, hb]; simp
  | ⟨1, _⟩ => show win1_1.index t (1 : Fin 3) * 2048 + 1 * s.val = s.val; rw [e1]; omega
  | ⟨2, _⟩ => show win1_1.index t (2 : Fin 3) * 1024 + 1 * d.val = d.val; rw [e2]; omega

/-- What point `t` writes back is block `t` of the per-batch feature matrix of the two arrays. -/
theorem flushed_eq (c : Dev nD) (t : Fin cfg1.N) :
    (dat1 (F := Ideal) V c).flushed 2 t = ((cfg1.win 2).blk t).view.read (Elt Ideal) (gram (V c main_v7) (V c main_v8)) := by
  show (cfg1.win 2).cut (grid1.coords t) ((dat1 V c).after 2 t) = _
  rw [after1_2]
  unfold out1_2
  rw [View.canon_unit_zero hz3]
  simp only [View.ld_unit_zero (S := S1x2048x1024) hz3]
  obtain ⟨-, -, -, -, -, -, e1, e2, hle⟩ := idx_facts t
  funext y
  show (k1_pay1 (F := Ideal) (iblk1 V c 0 t) (iblk1 V c 1 t) : Vec Ideal S1x1024x1024 .f32) y
    = gram (V c main_v7) (V c main_v8) (((cfg1.win 2).blk t).view.emb y)
  obtain ⟨z, d, e, rfl⟩ : ∃ (z : Fin 1) (d e : Fin 1024), (y : S1x1024x1024.Idx) = ix3 z d e := ⟨y 0, y 1, y 2, eq_ix3 y⟩
  obtain rfl : z = 0 := Subsingleton.elim _ _
  have hemb : (((cfg1.win 2).blk t).view.emb (ix3 (0 : Fin 1) d e) : S4x1024x1024.Idx)
      = ix3 (⟨win1_2.index t (0 : Fin 3), by omega⟩ : Fin 4) d e := funext fun a => Fin.ext (by
    match a with
    | ⟨0, _⟩ => show win1_2.index t (0 : Fin 3) * 1 + 1 * (0 : Fin 1).val = win1_2.index t (0 : Fin 3); simp
    | ⟨1, _⟩ => show win1_2.index t (1 : Fin 3) * 1024 + 1 * d.val = d.val; rw [e1]; omega
    | ⟨2, _⟩ => show win1_2.index t (2 : Fin 3) * 1024 + 1 * e.val = e.val; rw [e2]; omega)
  rw [hemb]
  refine (pay_apply (iblk1 V c 0 t) (iblk1 V c 1 t) d e).trans ?_
  unfold gram
  refine Finset.sum_congr rfl fun s _ => ?_
  rw [kblk_apply V c t ⟨win1_2.index t (0 : Fin 3), by omega⟩ rfl s d, vblk_apply V c t ⟨win1_2.index t (0 : Fin 3), by omega⟩ rfl s e]

/-- An index of the array is in point `t`'s block iff each coordinate is in the block's range on its axis. -/
theorem mem_blk (t : Fin cfg1.N) (i : S4x1024x1024.Idx) :
    i ∈ ((cfg1.win 2).blk t).view.set ↔ ∀ a : Fin 3, win1_2.index t a * S1x1024x1024.size a ≤ (i a).val ∧ (i a).val < win1_2.index t a * S1x1024x1024.size a + S1x1024x1024.size a := by
  show i ∈ ((View.whole main_v9).slice (win1_2.rect t)).set ↔ _
  rw [View.set_slice_whole, Rect.mem_set_unit]
  exact Iff.rfl

/-- The four blocks tile the array. -/
theorem cover (i : S4x1024x1024.Idx) : ∃ t : Fin cfg1.N, (cfg1.win 2).flush t = true ∧ i ∈ ((cfg1.win 2).blk t).view.set := by
  have hi0 : (i 0).val < 4 := (i 0).isLt
  have hi1 : (i 1).val < 1024 := (i 1).isLt
  have hi2 : (i 2).val < 1024 := (i 2).isLt
  obtain ⟨t, ht⟩ := idx_onto ⟨(i 0).val, hi0⟩
  have q0 : win1_2.index t (0 : Fin 3) = (i 0).val := congrFun ht 0
  have q1 : win1_2.index t (1 : Fin 3) = 0 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 1024 ≤ (i 2).val ∧ (i 2).val < win1_2.index t (2 : Fin 3) * 1024 + 1024; omega

/-- After the region the output array holds the per-batch feature matrix of the two input arrays. -/
theorem arr_gram (c : Dev nD) : (dat1 (F := Ideal) V c).arrAt 2 cfg1.N = gram (V c main_v7) (V c main_v8) :=
  (dat1 (F := Ideal) V c).arrAt_eq_of_cover 2 _ (fun t _ => flushed_eq V c t) cover

end Cert.KernelIdeal.Region1

end
-- ==== Proof.Region2.lean ====
import proofs.«130731_j87857851007669_1_alg».proof.Proof.Gen.KernelIdeal.Frame
import proofs.«130731_j87857851007669_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen Cert.LinAttn
open Cert.KernelIdeal.Facts₀ Cert.KernelIdeal.Facts

/-! ## The product's operand indices, axis by axis -/

theorem lhs_qm_0 (j : S512x1024.Idx) (q : Cert.KernelIdeal.dot_S512x1024_S1024x1024_S512x1024_1_0_0_1_n_n.contr.Idx) :
    (Cert.KernelIdeal.dot_S512x1024_S1024x1024_S512x1024_1_0_0_1_n_n.lhsIdx j q 0).val = (j 0).val := by
  unfold DotDims.lhsIdx
  rw [dif_neg (show ¬(0 : Fin S512x1024.rank) ∈ Cert.KernelIdeal.dot_S512x1024_S1024x1024_S512x1024_1_0_0_1_n_n.lhsBatch by decide), dif_pos (show (0 : Fin S512x1024.rank) ∈ Cert.KernelIdeal.dot_S512x1024_S1024x1024_S512x1024_1_0_0_1_n_n.lhsNonContracting by decide)]
  rfl
theorem lhs_qm_1 (j : S512x1024.Idx) (q : Cert.KernelIdeal.dot_S512x1024_S1024x1024_S512x1024_1_0_0_1_n_n.contr.Idx) :
    (Cert.KernelIdeal.dot_S512x1024_S1024x1024_S512x1024_1_0_0_1_n_n.lhsIdx j q 1).val = (q ⟨0, by decide⟩).val :=
  Cert.KernelIdeal.dot_S512x1024_S1024x1024_S512x1024_1_0_0_1_n_n.lhsIdx_val_of_single rfl j q
theorem rhs_qm_0 (j : S512x1024.Idx) (q : Cert.KernelIdeal.dot_S512x1024_S1024x1024_S512x1024_1_0_0_1_n_n.contr.Idx) :
    (Cert.KernelIdeal.dot_S512x1024_S1024x1024_S512x1024_1_0_0_1_n_n.rhsIdx j q 0).val = (q ⟨0, by decide⟩).val :=
  Cert.KernelIdeal.dot_S512x1024_S1024x1024_S512x1024_1_0_0_1_n_n.rhsIdx_val_of_single rfl j q
theorem rhs_qm_1 (j : S512x1024.Idx) (q : Cert.KernelIdeal.dot_S512x1024_S1024x1024_S512x1024_1_0_0_1_n_n.contr.Idx) :
    (Cert.KernelIdeal.dot_S512x1024_S1024x1024_S512x1024_1_0_0_1_n_n.rhsIdx j q 1).val = (j 1).val := by
  unfold DotDims.rhsIdx
  rw [dif_neg (show ¬(1 : Fin S1024x1024.rank) ∈ Cert.KernelIdeal.dot_S512x1024_S1024x1024_S512x1024_1_0_0_1_n_n.rhsBatch by decide), dif_pos (show (1 : Fin S1024x1024.rank) ∈ Cert.KernelIdeal.dot_S512x1024_S1024x1024_S512x1024_1_0_0_1_n_n.rhsNonContracting by decide)]
  rfl

/-- The product of a [512,1024] block with a [1024,1024] block into the zero accumulator, read at (p, e): the sum
    over the shared axis of the left block's row p times the right block's column e. -/
theorem matmul_apply_qm (a : FVec Ideal S512x1024 .bf16) (b : FVec Ideal S1024x1024 .bf16) (p : Fin 512) (e : Fin 1024) :
    matmul (F := Ideal) Cert.KernelIdeal.dot_S512x1024_S1024x1024_S512x1024_1_0_0_1_n_n none a b (constant (F := Ideal) S512x1024 .f32 0x00000000#32) (ix2 p e)
      = ∑ d : Fin 1024, a (ix2 p d) * b (ix2 d e) := by
  show FloatOps.matmul Cert.KernelIdeal.dot_S512x1024_S1024x1024_S512x1024_1_0_0_1_n_n none a b (constant (F := Ideal) S512x1024 .f32 0x00000000#32) (ix2 p e) = _
  rw [Ideal.matmul_constant_zero_apply, ← Equiv.sum_comp (ValueIdx.contrEquiv1 Cert.KernelIdeal.dot_S512x1024_S1024x1024_S512x1024_1_0_0_1_n_n 1024 rfl rfl).symm]
  refine Finset.sum_congr rfl fun k _ => ?_
  have hk := ValueIdx.contrEquiv1_symm_val Cert.KernelIdeal.dot_S512x1024_S1024x1024_S512x1024_1_0_0_1_n_n 1024 rfl rfl k
  have el : Cert.KernelIdeal.dot_S512x1024_S1024x1024_S512x1024_1_0_0_1_n_n.lhsIdx (ix2 p e) ((ValueIdx.contrEquiv1 Cert.KernelIdeal.dot_S512x1024_S1024x1024_S512x1024_1_0_0_1_n_n 1024 rfl rfl).symm k) = ix2 p k := funext fun a => Fin.ext (by
    match a with
    | ⟨0, _⟩ => exact lhs_qm_0 _ _
    | ⟨1, _⟩ => exact (lhs_qm_1 _ _).trans hk)
  have er : Cert.KernelIdeal.dot_S512x1024_S1024x1024_S512x1024_1_0_0_1_n_n.rhsIdx (ix2 p e) ((ValueIdx.contrEquiv1 Cert.KernelIdeal.dot_S512x1024_S1024x1024_S512x1024_1_0_0_1_n_n 1024 rfl rfl).symm k) = ix2 k e := funext fun a => Fin.ext (by
    match a with
    | ⟨0, _⟩ => exact (rhs_qm_0 _ _).trans hk
    | ⟨1, _⟩ => exact rhs_qm_1 _ _)
  rw [el, er]

/-! ## The body's stored value at an index -/

/-- The query block viewed [512,1024] reads the block's row (0, p). -/
theorem cast_query (x : Vec Ideal S1x512x1024 .bf16) (z : Fin 1) (p : Fin 512) (d : Fin 1024) :
    shapeCast S512x1024 x Gen.shapeCasts_S1x512x1024_S512x1024 (ix2 p d) = x (ix3 z p d) :=
  shapeCast_apply x _ (ix2 p d) (ix3 z p d) (by
    rw [Shape.rowMajor_val_two, Shape.rowMajor_val_three]
    show (z.val * 512 + p.val) * 1024 + d.val = p.val * 1024 + d.val
    have hz : z.val < 1 := z.isLt
    omega)

/-- The matrix block viewed [1024,1024] reads the block's entry (0, d, e). -/
theorem cast_matrix (G : Vec Ideal S1x1024x1024 .f32) (z : Fin 1) (d : Fin 1024) (e : Fin 1024) :
    shapeCast S1024x1024 G Gen.shapeCasts_S1x1024x1024_S1024x1024 (ix2 d e) = G (ix3 z d e) :=
  shapeCast_apply G _ (ix2 d e) (ix3 z d e) (by
    rw [Shape.rowMajor_val_two, Shape.rowMajor_val_three]
    show (z.val * 1024 + d.val) * 1024 + e.val = d.val * 1024 + e.val
    have hz : z.val < 1 := z.isLt
    omega)

/-- A [512,1024] value stored as a [1,512,1024] block reads (p, e) at (0, p, e). -/
theorem cast_out (y : FVec Ideal S512x1024 .f32) (z : Fin 1) (p : Fin 512) (e : Fin 1024) :
    shapeCast S1x512x1024 y Gen.shapeCasts_S512x1024_S1x512x1024 (ix3 z p e) = y (ix2 p e) :=
  shapeCast_apply y _ (ix3 z p e) (ix2 p e) (by
    rw [Shape.rowMajor_val_two, Shape.rowMajor_val_three]
    show p.val * 1024 + e.val = (z.val * 512 + p.val) * 1024 + e.val
    have hz : z.val < 1 := z.isLt
    omega)

/-- What the body stores, at (0, p, e): the query block's row p against the matrix block's column e, summed over
    the shared feature axis, times the scale. -/
theorem pay_apply (x : Vec Ideal S1x512x1024 .bf16) (G : Vec Ideal S1x1024x1024 .f32) (z : Fin 1) (p : Fin 512) (e : Fin 1024) :
    k2_pay1 (F := Ideal) x G (ix3 z p e)
      = (∑ d : Fin 1024, x (ix3 z p d) * G (ix3 z d e)) * Ideal.ofBits .f32 0x3D000000#32 := by
  unfold k2_pay1
  refine (cast_out _ z p e).trans ?_
  refine (mulf_apply _ _ (ix2 p e)).trans ?_
  refine congrArg₂ (· * ·) ?_ rfl
  refine (matmul_apply_qm _ _ p e).trans ?_
  refine Finset.sum_congr rfl fun d _ => ?_
  exact congrArg₂ (· * ·) (cast_query x z p d) ((truncf_apply (ψ := .bf16) (φ := .f32) (shapeCast S1024x1024 G Gen.shapeCasts_S1x1024x1024_S1024x1024) Gen.bitsLt_bf16_f32 (ix2 d e)).trans (cast_matrix G z d e))

/-! ## What each grid point writes back -/

-- the contents of the TensorCore's buffers when the region is entered
variable (V : (c : Dev nD) → (b : Ref sig .tc) → Buf (Elt Ideal) ((c : Thread nD τ).loc b))

theorem zero3 : (![0, 0, 0] : Fin 3 → Nat) = fun _ => 0 := funext fun a => by fin_cases a <;> rfl

/-- The three index maps over the grid: the query block moves with the output block on the batch and row axes, the
    matrix block on the batch axis only; every other block index is zero; the output's stay in range. -/
theorem index_facts : ∀ t : Fin cfg2.N,
    win2_0.index t (0 : Fin 3) = win2_2.index t (0 : Fin 3)
    ∧ win2_0.index t (1 : Fin 3) = win2_2.index t (1 : Fin 3)
    ∧ win2_0.index t (2 : Fin 3) = 0
    ∧ win2_1.index t (0 : Fin 3) = win2_2.index t (0 : Fin 3)
    ∧ win2_1.index t (1 : Fin 3) = 0
    ∧ win2_1.index t (2 : Fin 3) = 0
    ∧ win2_2.index t (2 : Fin 3) = 0
    ∧ win2_2.index t (0 : Fin 3) ≤ 3
    ∧ win2_2.index t (1 : Fin 3) ≤ 3 :=
  (by decide +kernel : ∀ t : Fin grid2.N, _)

/-- Every (batch, row tile) pair is some point's output block. -/
theorem index_onto : ∀ (b s : Fin 4), ∃ t : Fin cfg2.N, win2_2.index t = ![b.val, s.val, 0] :=
  (by decide +kernel : ∀ (b s : Fin 4), ∃ t : Fin grid2.N, win2_2.index t = ![b.val, s.val, 0])

/-- The query block's entry (0, p, d) at a point is the query array at (b, r, d): b the point's batch, r the
    row p of the point's row tile. -/
theorem query_block (c : Dev nD) (t : Fin cfg2.N) (b : Fin 4) (r : Fin 2048) (p : Fin 512)
    (hb : win2_2.index t (0 : Fin 3) = b.val) (hr : win2_2.index t (1 : Fin 3) * 512 + p.val = r.val) (d : Fin 1024) :
    (iblk2 V c 0 t : Vec Ideal S1x512x1024 .bf16) (ix3 (0 : Fin 1) p d)
      = (V c main_v6 : S4x2048x1024.Idx → EReal) (ix3 b r d) := by
  obtain ⟨e0, e1, e2, -⟩ := index_facts t
  unfold iblk2
  rw [View.read_apply]
  show V c main_v6 _ = V c main_v6 _
  congr 1
  funext a
  apply Fin.ext
  match a with
  | ⟨0, _⟩ => show win2_0.index t (0 : Fin 3) * 1 + 1 * (0 : Fin 1).val = b.val; rw [e0, hb]; simp
  | ⟨1, _⟩ => show win2_0.index t (1 : Fin 3) * 512 + 1 * p.val = r.val; rw [e1, Nat.one_mul]; exact hr
  | ⟨2, _⟩ => show win2_0.index t (2 : Fin 3) * 1024 + 1 * d.val = d.val; rw [e2, Nat.zero_mul, Nat.zero_add, Nat.one_mul]

/-- The matrix block's entry (0, d, e) at a point is the matrix array at (b, d, e), b the point's batch. -/
theorem matrix_block (c : Dev nD) (t : Fin cfg2.N) (b : Fin 4) (hb : win2_2.index t (0 : Fin 3) = b.val) (d e : Fin 1024) :
    (iblk2 V c 1 t : Vec Ideal S1x1024x1024 .f32) (ix3 (0 : Fin 1) d e)
      = (V c main_v9 : S4x1024x1024.Idx → EReal) (ix3 b d e) := by
  obtain ⟨-, -, -, e0, e1, e2, -⟩ := index_facts t
  unfold iblk2
  rw [View.read_apply]
  show V c main_v9 _ = V c main_v9 _
  congr 1
  funext a
  apply Fin.ext
  match a with
  | ⟨0, _⟩ => show win2_1.index t (0 : Fin 3) * 1 + 1 * (0 : Fin 1).val = b.val; rw [e0, hb]; simp
  | ⟨1, _⟩ => show win2_1.index t (1 : Fin 3) * 1024 + 1 * d.val = d.val; rw [e1, Nat.zero_mul, Nat.zero_add, Nat.one_mul]
  | ⟨2, _⟩ => show win2_1.index t (2 : Fin 3) * 1024 + 1 * e.val = e.val; rw [e2, Nat.zero_mul, Nat.zero_add, Nat.one_mul]

/-- What a point writes back is its block of the queries applied to the per-batch matrix, scaled. -/
theorem flushed_eq (c : Dev nD) (t : Fin cfg2.N) :
    (dat2 (F := Ideal) V c).flushed 2 t
      = ((cfg2.win 2).blk t).view.read (Elt Ideal) (applyGram (V c main_v6) (V c main_v9) (Ideal.ofBits .f32 0x3D000000#32)) := by
  show (cfg2.win 2).cut (grid2.coords t) ((dat2 V c).after 2 t) = _
  rw [after2_2]
  unfold out2_2
  rw [View.canon_unit_zero zero3]
  simp only [View.ld_unit_zero (S := S1x512x1024) zero3, View.ld_unit_zero (S := S1x1024x1024) zero3]
  obtain ⟨-, -, -, -, -, -, e2, hb, hs⟩ := index_facts t
  funext y
  show (k2_pay1 (F := Ideal) (iblk2 V c 0 t) (iblk2 V c 1 t) : Vec Ideal S1x512x1024 .f32) y
    = applyGram (V c main_v6) (V c main_v9) (Ideal.ofBits .f32 0x3D000000#32) (((cfg2.win 2).blk t).view.emb y)
  obtain ⟨z, p, e, rfl⟩ : ∃ (z : Fin 1) (p : Fin 512) (e : Fin 1024), (y : S1x512x1024.Idx) = ix3 z p e :=
    ⟨y 0, y 1, y 2, eq_ix3 y⟩
  obtain rfl : z = 0 := Subsingleton.elim _ _
  have hp : p.val < 512 := p.isLt
  have hemb : (((cfg2.win 2).blk t).view.emb (ix3 (0 : Fin 1) p e) : S4x2048x1024.Idx)
      = ix3 (⟨win2_2.index t (0 : Fin 3), by omega⟩ : Fin 4) (⟨win2_2.index t (1 : Fin 3) * 512 + p.val, by omega⟩ : Fin 2048) e :=
    funext fun a => Fin.ext (by
      match a with
      | ⟨0, _⟩ => show win2_2.index t (0 : Fin 3) * 1 + 1 * (0 : Fin 1).val = win2_2.index t (0 : Fin 3); simp
      | ⟨1, _⟩ => show win2_2.index t (1 : Fin 3) * 512 + 1 * p.val = win2_2.index t (1 : Fin 3) * 512 + p.val; omega
      | ⟨2, _⟩ => show win2_2.index t (2 : Fin 3) * 1024 + 1 * e.val = e.val; rw [e2]; omega)
  rw [hemb]
  refine (pay_apply (iblk2 V c 0 t) (iblk2 V c 1 t) 0 p e).trans ?_
  unfold applyGram
  refine congrArg (· * (Ideal.ofBits .f32 0x3D000000#32)) ?_
  refine Finset.sum_congr rfl fun d _ => ?_
  rw [query_block V c t ⟨win2_2.index t (0 : Fin 3), by omega⟩ ⟨win2_2.index t (1 : Fin 3) * 512 + p.val, by omega⟩ p rfl rfl d,
    matrix_block V c t ⟨win2_2.index t (0 : Fin 3), by omega⟩ rfl d e]

/-! ## The blocks tile the array -/

/-- An index of the array is in a point's block iff each coordinate is in the block's range on its axis. -/
theorem mem_block (t : Fin cfg2.N) (i : S4x2048x1024.Idx) :
    i ∈ ((cfg2.win 2).blk t).view.set ↔ ∀ a : Fin 3, win2_2.index t a * S1x512x1024.size a ≤ (i a).val
      ∧ (i a).val < win2_2.index t a * S1x512x1024.size a + S1x512x1024.size a := by
  show i ∈ ((View.whole main_v10).slice (win2_2.rect t)).set ↔ _
  rw [View.set_slice_whole, Rect.mem_set_unit]
  exact Iff.rfl

/-- The sixteen blocks tile the array: (b, r, e) lies in the block of the point at batch b and row tile r / 512. -/
theorem cover (i : S4x2048x1024.Idx) :
    ∃ t : Fin cfg2.N, (cfg2.win 2).flush t = true ∧ i ∈ ((cfg2.win 2).blk t).view.set := by
  have hi0 : (i 0).val < 4 := (i 0).isLt
  have hi1 : (i 1).val < 2048 := (i 1).isLt
  have hi2 : (i 2).val < 1024 := (i 2).isLt
  obtain ⟨t, ht⟩ := index_onto ⟨(i 0).val, hi0⟩ ⟨(i 1).val / 512, by omega⟩
  have q0 : win2_2.index t (0 : Fin 3) = (i 0).val := congrFun ht 0
  have q1 : win2_2.index t (1 : Fin 3) = (i 1).val / 512 := congrFun ht 1
  have q2 : win2_2.index t (2 : Fin 3) = 0 := congrFun ht 2
  refine ⟨t, flush2_2 t, ?_⟩
  rw [mem_block]
  intro a
  match a with
  | ⟨0, _⟩ =>
    show win2_2.index t (0 : Fin 3) * 1 ≤ (i 0).val ∧ (i 0).val < win2_2.index t (0 : Fin 3) * 1 + 1
    rw [q0]; clear q0 q1 q2 ht; omega
  | ⟨1, _⟩ =>
    show win2_2.index t (1 : Fin 3) * 512 ≤ (i 1).val ∧ (i 1).val < win2_2.index t (1 : Fin 3) * 512 + 512
    rw [q1]; clear q0 q1 q2 ht; omega
  | ⟨2, _⟩ =>
    show win2_2.index t (2 : Fin 3) * 1024 ≤ (i 2).val ∧ (i 2).val < win2_2.index t (2 : Fin 3) * 1024 + 1024
    rw [q2]; clear q0 q1 q2 ht; omega

/-! ## The output array after the region -/

theorem arr_out (c : Dev nD) :
    (dat2 (F := Ideal) V c).arrAt 2 cfg2.N = applyGram (V c main_v6) (V c main_v9) (Ideal.ofBits .f32 0x3D000000#32) :=
  (dat2 (F := Ideal) V c).arrAt_eq_of_cover 2 _ (fun t _ => flushed_eq V c t) cover

end Cert.KernelIdeal.Region2

end
-- ==== Proof.Merge.lean ====
/-
  Merging the batch and position axes of a token array into one axis of length 4 · 2048 keeps the
  row-major order: entry (b, s, d) sits at (b · 2048 + s, d). A projection acts on the feature axis
  only, so projecting the merged array and splitting the leading axis again is the projection of the
  original array.
-/
import proofs.«130731_j87857851007669_1_alg».proof.Proof.Spec
import Idealize.ShloMosaic.Lib.Pipeline.Value
import Idealize.ShloMosaic.Lib.ValueIdx

noncomputable section

namespace Cert.LinAttn

open Idealize.ShloMosaic Idealize.ShloMosaic.ValueIdx

/-- The merged array read at (b · 2048 + s, d) is the original at (b, s, d). -/
theorem merged_apply {α : Type} (x : Tok.Idx → α) (h : Tok.ShapeCasts Flat) (b : Fin 4) (s : Fin 2048) (d : Fin 1024)
    (hr : b.val * 2048 + s.val < 8192) :
    shapeCast Flat x h (ix2 ⟨b.val * 2048 + s.val, hr⟩ d) = x (ix3 b s d) :=
  shapeCast_apply x h _ _ (by
    rw [Shape.rowMajor_val_two, Shape.rowMajor_val_three]
    rfl)

/-- A merged array split again, read at (b, s, e), is the merged one at (b · 2048 + s, e). -/
theorem split_apply {α : Type} (y : Flat.Idx → α) (h : Flat.ShapeCasts Tok) (b : Fin 4) (s : Fin 2048) (e : Fin 1024)
    (hr : b.val * 2048 + s.val < 8192) :
    shapeCast Tok y h (ix3 b s e) = y (ix2 ⟨b.val * 2048 + s.val, hr⟩ e) :=
  shapeCast_apply y h _ _ (by
    rw [Shape.rowMajor_val_two, Shape.rowMajor_val_three]
    rfl)

/-- Projecting the merged array and splitting it again is projecting the original. -/
theorem split_projFlat_merged (x : Tok.Idx → EReal) (w : Wt.Idx → EReal) (h1 : Tok.ShapeCasts Flat) (h2 : Flat.ShapeCasts Tok) :
    shapeCast Tok (projFlat (shapeCast Flat x h1) w) h2 = proj x w := by
  funext i
  obtain ⟨b, s, e, rfl⟩ : ∃ (b : Fin 4) (s : Fin 2048) (e : Fin 1024), i = ix3 b s e := ⟨i 0, i 1, i 2, eq_ix3 i⟩
  have hr : b.val * 2048 + s.val < 8192 := by omega
  rw [split_apply _ h2 b s e hr]
  unfold projFlat proj
  refine Finset.sum_congr rfl fun d _ => ?_
  show shapeCast Flat x h1 (ix2 ⟨b.val * 2048 + s.val, hr⟩ d) * w (ix2 e d) = x (ix3 b s d) * w (ix2 e d)
  rw [merged_apply x h1 b s d hr]

end Cert.LinAttn

end
-- ==== Proof.Chain.lean ====
import proofs.«130731_j87857851007669_1_alg».proof.Proof.Gen.KernelIdeal.Frame
import proofs.«130731_j87857851007669_1_alg».proof.Proof.Spec
import proofs.«130731_j87857851007669_1_alg».proof.Proof.Region0
import proofs.«130731_j87857851007669_1_alg».proof.Proof.Region1
import proofs.«130731_j87857851007669_1_alg».proof.Proof.Region2
import Idealize.ShloMosaic.Lib.Pipeline.Value
import Idealize.ShloMosaic.Lib.ValueIdx
import Idealize.ShloMosaic.Lib.StableHlo.Run
import proofs.«130731_j87857851007669_1_alg».proof.Proof.Merge

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.LinAttn
open Cert.KernelIdeal.Facts₀ Cert.KernelIdeal.Facts

variable (m : (ℓ : Loc nD τ sig) → Buf (Elt Ideal) ℓ) (ρ : Dev nD → PrngReg)

/-! ### Before the first region: the token array merged, the three weights as launched -/

/-- The first region reads the token array with its two leading axes merged (a change of float format is the
    identity on the extended reals). -/
theorem entry0_x (c : Dev nD) :
    (V1 m ρ c main_v1 : Flat.Idx → EReal)
      = shapeCast Flat (m ((c : Thread nD τ).loc main_arg0) : Tok.Idx → EReal) Facts₀.shapeCasts_S4x2048x1024_S8192x1024 := by
  show StableHlo.after hostOps0 (W0 m ρ c) (Proc.devRef .tc main_v1) = _
  after_results
  rfl

/-- It reads the query weight as launched. -/
theorem entry0_wq (c : Dev nD) :
    (V1 m ρ c main_v2 : Wt.Idx → EReal) = (m ((c : Thread nD τ).loc main_arg1) : Wt.Idx → EReal) := by
  show StableHlo.after hostOps0 (W0 m ρ c) (Proc.devRef .tc main_v2) = _
  after_results
  rfl

/-- It reads the key weight as launched. -/
theorem entry0_wk (c : Dev nD) :
    (V1 m ρ c main_v3 : Wt.Idx → EReal) = (m ((c : Thread nD τ).loc main_arg2) : Wt.Idx → EReal) := by
  show StableHlo.after hostOps0 (W0 m ρ c) (Proc.devRef .tc main_v3) = _
  after_results
  rfl

/-- It reads the value weight as launched. -/
theorem entry0_wv (c : Dev nD) :
    (V1 m ρ c main_v4 : Wt.Idx → EReal) = (m ((c : Thread nD τ).loc main_arg3) : Wt.Idx → EReal) := by
  show StableHlo.after hostOps0 (W0 m ρ c) (Proc.devRef .tc main_v4) = _
  after_results
  rfl

/-! ### The first region's three results, then split back into (batch, position, feature) -/

/-- The first region leaves the query projection of the merged array. -/
theorem exit0_q (c : Dev nD) :
    (W2 m ρ c (Proc.devRef .tc main_v5_0) : Flat.Idx → EReal) = projFlat (V1 m ρ c main_v1) (V1 m ρ c main_v2) :=
  (W2_arr m ρ c 4).trans (Region0.arr_q (V1 m ρ) c)

/-- It leaves the key projection of the merged array. -/
theorem exit0_k (c : Dev nD) :
    (W2 m ρ c (Proc.devRef .tc main_v5_1) : Flat.Idx → EReal) = projFlat (V1 m ρ c main_v1) (V1 m ρ c main_v3) :=
  (W2_arr m ρ c 5).trans (Region0.arr_k (V1 m ρ) c)

/-- It leaves the value projection of the merged array. -/
theorem exit0_v (c : Dev nD) :
    (W2 m ρ c (Proc.devRef .tc main_v5_2) : Flat.Idx → EReal) = projFlat (V1 m ρ c main_v1) (V1 m ρ c main_v4) :=
  (W2_arr m ρ c 6).trans (Region0.arr_v (V1 m ρ) c)

/-- Before the second region the query projection is split back into (batch, position, feature). -/
theorem entry1_q (c : Dev nD) :
    (W3 m ρ c (Proc.devRef .tc main_v6) : Tok.Idx → EReal)
      = shapeCast Tok (W2 m ρ c (Proc.devRef .tc main_v5_0) : Flat.Idx → EReal) Facts₀.shapeCasts_S8192x1024_S4x2048x1024 := by
  show StableHlo.after hostOps1 (W2 m ρ c) (Proc.devRef .tc main_v6) = _
  after_results
  rfl

/-- So is the key projection. -/
theorem entry1_k (c : Dev nD) :
    (W3 m ρ c (Proc.devRef .tc main_v7) : Tok.Idx → EReal)
      = shapeCast Tok (W2 m ρ c (Proc.devRef .tc main_v5_1) : Flat.Idx → EReal) Facts₀.shapeCasts_S8192x1024_S4x2048x1024 := by
  show StableHlo.after hostOps1 (W2 m ρ c) (Proc.devRef .tc main_v7) = _
  after_results
  rfl

/-- So is the value projection. -/
theorem entry1_v (c : Dev nD) :
    (W3 m ρ c (Proc.devRef .tc main_v8) : Tok.Idx → EReal)
      = shapeCast Tok (W2 m ρ c (Proc.devRef .tc main_v5_2) : Flat.Idx → EReal) Facts₀.shapeCasts_S8192x1024_S4x2048x1024 := by
  show StableHlo.after hostOps1 (W2 m ρ c) (Proc.devRef .tc main_v8) = _
  after_results
  rfl

/-- Split back, each is the projection of the launched token array by the launched weight. -/
theorem proj_q (c : Dev nD) :
    (W3 m ρ c (Proc.devRef .tc main_v6) : Tok.Idx → EReal)
      = proj (m ((c : Thread nD τ).loc main_arg0)) (m ((c : Thread nD τ).loc main_arg1)) := by
  rw [entry1_q, exit0_q, entry0_x, entry0_wq]
  exact split_projFlat_merged _ _ _ _

theorem proj_k (c : Dev nD) :
    (W3 m ρ c (Proc.devRef .tc main_v7) : Tok.Idx → EReal)
      = proj (m ((c : Thread nD τ).loc main_arg0)) (m ((c : Thread nD τ).loc main_arg2)) := by
  rw [entry1_k, exit0_k, entry0_x, entry0_wk]
  exact split_projFlat_merged _ _ _ _

theorem proj_v (c : Dev nD) :
    (W3 m ρ c (Proc.devRef .tc main_v8) : Tok.Idx → EReal)
      = proj (m ((c : Thread nD τ).loc main_arg0)) (m ((c : Thread nD τ).loc main_arg3)) := by
  rw [entry1_v, exit0_v, entry0_x, entry0_wv]
  exact split_projFlat_merged _ _ _ _

/-! ### The second and third regions, and the whole chain -/

/-- The second region leaves the per-batch feature matrix of the key and value projections. -/
theorem exit1_gram (c : Dev nD) :
    (W4 m ρ c (Proc.devRef .tc main_v9) : Gram.Idx → EReal)
      = gram (W3 m ρ c (Proc.devRef .tc main_v7)) (W3 m ρ c (Proc.devRef .tc main_v8)) :=
  (W4_arr m ρ c 2).trans (Region1.arr_gram (V3 m ρ) c)

/-- It does not touch the query projection. -/
theorem exit1_q (c : Dev nD) :
    W4 m ρ c (Proc.devRef .tc main_v6) = W3 m ρ c (Proc.devRef .tc main_v6) :=
  W4_of_ne m ρ c main_v6 (by decide)

/-- The third region leaves the product of the queries with the feature matrix, scaled. -/
theorem exit2_out (c : Dev nD) :
    (W5 m ρ c (Proc.devRef .tc main_v10) : Tok.Idx → EReal)
      = applyGram (W4 m ρ c (Proc.devRef .tc main_v6)) (W4 m ρ c (Proc.devRef .tc main_v9))
          (Ideal.ofBits .f32 0x3D000000#32) :=
  (W5_arr m ρ c 2).trans (Region2.arr_out (V4 m ρ) c)

/-- The result buffer's contents at the last boundary: the feature-matrix formula of the four launched arguments,
    scaled by the word `0x3D000000`. -/
theorem result (c : Dev nD) :
    (W5 (F := Ideal) m ρ c (Proc.devRef .tc main_v10) : Tok.Idx → EReal)
      = viaGram (m ((c : Thread nD τ).loc main_arg0)) (m ((c : Thread nD τ).loc main_arg1))
          (m ((c : Thread nD τ).loc main_arg2)) (m ((c : Thread nD τ).loc main_arg3)) (Ideal.ofBits .f32 0x3D000000#32) := by
  rw [exit2_out, exit1_q, exit1_gram, proj_q, proj_k, proj_v]
  rfl

end Cert.KernelIdeal.Chain

end
-- ==== Proof.RefValue.lean ====
import proofs.«130731_j87857851007669_1_alg».proof.Proof.Gen.ReferenceIdeal.Read
import proofs.«130731_j87857851007669_1_alg».proof.Proof.Spec

noncomputable section

namespace Cert.ReferenceIdeal.RefValue

open Idealize.ShloMosaic Idealize.ShloMosaic.ValueIdx Cert.ReferenceIdeal Cert.ReferenceIdeal.Read Cert.LinAttn

/-! ### Where each contraction reads its operands

Every contraction of the reference reads its left and right operand at an index assembled from the
result index and the summed coordinate. Each such index is one of the coordinate constructors. -/

/-- A projection reads the tokens at (batch, position, summed feature). -/
theorem lidx0 (j : Tok.Idx) (d : Fin 1024) : lidx_main_v0 j d = (ix3 (j 0) (j 1) d : Tok.Idx) :=
  funext fun a => Fin.ext (by match a with | ⟨0, _⟩ => rfl | ⟨1, _⟩ => rfl | ⟨2, _⟩ => rfl)
/-- A projection reads the weight at (output feature, summed feature). -/
theorem ridx0 (j : Tok.Idx) (d : Fin 1024) : ridx_main_v0 j d = (ix2 (j 2) d : Wt.Idx) :=
  funext fun a => Fin.ext (by match a with | ⟨0, _⟩ => rfl | ⟨1, _⟩ => rfl)
theorem lidx1 (j : Tok.Idx) (d : Fin 1024) : lidx_main_v1 j d = (ix3 (j 0) (j 1) d : Tok.Idx) :=
  funext fun a => Fin.ext (by match a with | ⟨0, _⟩ => rfl | ⟨1, _⟩ => rfl | ⟨2, _⟩ => rfl)
theorem ridx1 (j : Tok.Idx) (d : Fin 1024) : ridx_main_v1 j d = (ix2 (j 2) d : Wt.Idx) :=
  funext fun a => Fin.ext (by match a with | ⟨0, _⟩ => rfl | ⟨1, _⟩ => rfl)
theorem lidx2 (j : Tok.Idx) (d : Fin 1024) : lidx_main_v2 j d = (ix3 (j 0) (j 1) d : Tok.Idx) :=
  funext fun a => Fin.ext (by match a with | ⟨0, _⟩ => rfl | ⟨1, _⟩ => rfl | ⟨2, _⟩ => rfl)
theorem ridx2 (j : Tok.Idx) (d : Fin 1024) : ridx_main_v2 j d = (ix2 (j 2) d : Wt.Idx) :=
  funext fun a => Fin.ext (by match a with | ⟨0, _⟩ => rfl | ⟨1, _⟩ => rfl)
/-- The scores read the queries at (batch, query position, summed feature). -/
theorem lidx5 (j : Score.Idx) (d : Fin 1024) : lidx_main_v5 j d = (ix3 (j 0) (j 1) d : Tok.Idx) :=
  funext fun a => Fin.ext (by match a with | ⟨0, _⟩ => rfl | ⟨1, _⟩ => rfl | ⟨2, _⟩ => rfl)
/-- The scores read the keys at (batch, key position, summed feature). -/
theorem ridx5 (j : Score.Idx) (d : Fin 1024) : ridx_main_v5 j d = (ix3 (j 0) (j 2) d : Tok.Idx) :=
  funext fun a => Fin.ext (by match a with | ⟨0, _⟩ => rfl | ⟨1, _⟩ => rfl | ⟨2, _⟩ => rfl)
/-- The last contraction reads the scaled scores at (batch, position, summed position). -/
theorem lidx8 (i : Tok.Idx) (t : Fin 2048) : lidx_main_v8 i t = (ix3 (i 0) (i 1) t : Score.Idx) :=
  funext fun a => Fin.ext (by match a with | ⟨0, _⟩ => rfl | ⟨1, _⟩ => rfl | ⟨2, _⟩ => rfl)
/-- The last contraction reads the values at (batch, summed position, feature). -/
theorem ridx8 (i : Tok.Idx) (t : Fin 2048) : ridx_main_v8 i t = (ix3 (i 0) t (i 2) : Tok.Idx) :=
  funext fun a => Fin.ext (by match a with | ⟨0, _⟩ => rfl | ⟨1, _⟩ => rfl | ⟨2, _⟩ => rfl)

/-! ### The stages -/

/-- The first projection stage is the projection by the first weight. -/
theorem stage0 (x0 : Tok.Idx → EReal) (x1 : Wt.Idx → EReal) :
    val_main_v0 (F := Ideal) x0 x1 = proj x0 x1 := by
  funext m
  rw [val_main_v0_apply]
  unfold proj
  exact Finset.sum_congr rfl fun d _ => by rw [lidx0, ridx0]

/-- The second projection stage is the projection by the second weight. -/
theorem stage1 (x0 : Tok.Idx → EReal) (x2 : Wt.Idx → EReal) :
    val_main_v1 (F := Ideal) x0 x2 = proj x0 x2 := by
  funext m
  rw [val_main_v1_apply]
  unfold proj
  exact Finset.sum_congr rfl fun d _ => by rw [lidx1, ridx1]

/-- The third projection stage is the projection by the third weight. -/
theorem stage2 (x0 : Tok.Idx → EReal) (x3 : Wt.Idx → EReal) :
    val_main_v2 (F := Ideal) x0 x3 = proj x0 x3 := by
  funext m
  rw [val_main_v2_apply]
  unfold proj
  exact Finset.sum_congr rfl fun d _ => by rw [lidx2, ridx2]

/-- The broadcast scalar is, at every index, the quotient of the word for one by the square root of the
    word for 1024; it is kept as that term and never evaluated. -/
theorem stage6 (j : Score.Idx) :
    val_main_v6 (F := Ideal) j
      = FloatOps.hostDivf (F := Ideal) (FloatOps.ofBits .f32 0x3F800000#32) (FloatOps.hostUnary .sqrt (FloatOps.ofBits .f32 0x44800000#32)) := by
  rw [val_main_v6_apply, val_main_v4_apply, val_main_cst_0_apply, val_main_v3_apply, val_main_cst_apply]

/-- The scaled scores are the score formula of the first two projections at that scalar. -/
theorem stage7 (x0 : Tok.Idx → EReal) (x1 x2 : Wt.Idx → EReal) :
    val_main_v7 (F := Ideal) x0 x1 x2
      = score (proj x0 x1) (proj x0 x2) (FloatOps.hostDivf (F := Ideal) (FloatOps.ofBits .f32 0x3F800000#32) (FloatOps.hostUnary .sqrt (FloatOps.ofBits .f32 0x44800000#32))) := by
  funext j
  rw [val_main_v7_apply, val_main_v5_apply, stage6, stage0, stage1, Ideal.mulf_def]
  unfold score
  refine congrArg (fun s : EReal => s * _) (Finset.sum_congr rfl fun d _ => ?_)
  rw [lidx5, ridx5]

/-- The reference's result stage is the score-order formula of its four arguments, scaled by its own `1 / sqrt 1024`. -/
theorem result (x0 : Tok.Idx → EReal) (x1 x2 x3 : Wt.Idx → EReal) :
    val_main_v8 (F := Ideal) x0 x1 x2 x3
      = viaScore x0 x1 x2 x3 (FloatOps.hostDivf (F := Ideal) (FloatOps.ofBits .f32 0x3F800000#32) (FloatOps.hostUnary .sqrt (FloatOps.ofBits .f32 0x44800000#32))) := by
  funext i
  rw [val_main_v8_apply, stage7, stage2]
  unfold viaScore applyScore
  exact Finset.sum_congr rfl fun t _ => by rw [lidx8, ridx8]

end Cert.ReferenceIdeal.RefValue

end
-- ==== Proof.Law.lean ====
import proofs.«130731_j87857851007669_1_alg».proof.Proof.Spec
import Idealize.ShloMosaic.PureOps.Ideal.Laws

noncomputable section

namespace Cert.LinAttn

open Idealize.ShloMosaic Idealize.ShloMosaic.ValueIdx

/-! ### The two scale constants -/

namespace Law

/-- The word `0x3F800000` is the real number one. -/
theorem word_one : Ideal.ofBits .f32 0x3F800000#32 = ((1 : ℝ) : EReal) := by
  simp [Ideal.ofBits, Ideal.ieee, -EReal.coe_mul]; norm_num

/-- The word `0x44800000` is `2^10 = 1024`. -/
theorem word_1024 : Ideal.ofBits .f32 0x44800000#32 = ((1024 : ℝ) : EReal) := by
  simp [Ideal.ofBits, Ideal.ieee, -EReal.coe_mul]; norm_num

end Law

/-- The first program's scale, the word `0x3D000000`, is `1/32`. -/
theorem scale_word : Ideal.ofBits .f32 0x3D000000#32 = ((1 / 32 : ℝ) : EReal) := by
  simp [Ideal.ofBits, Ideal.ieee, -EReal.coe_mul]; norm_num

namespace Law

/-- `32 * 32 = 1024`, so the square root of `1024` is `32`. -/
theorem sqrt_1024 : Real.sqrt 1024 = 32 := by
  rw [Real.sqrt_eq_iff_mul_self_eq (by norm_num) (by norm_num)]; norm_num

end Law

/-- The second program's scale, `1 / sqrt 1024` computed on the extended reals, is `1/32` too. -/
theorem scale_sqrt :
    FloatOps.hostDivf (F := Ideal) (FloatOps.ofBits .f32 0x3F800000#32) (FloatOps.hostUnary .sqrt (FloatOps.ofBits .f32 0x44800000#32))
      = ((1 / 32 : ℝ) : EReal) := by
  rw [Ideal.hostDivf_def, Ideal.hostUnary_sqrt_def, Ideal.ofBits_def, Ideal.ofBits_def, Law.word_one, Law.word_1024,
    Ideal.sqrt_coe, if_neg (by norm_num), Law.sqrt_1024, Ideal.div_coe (by norm_num), ← EReal.coe_mul, one_mul]

/-! ### Sums of real numbers inside the extended reals -/

namespace Law

/-- The inclusion of the reals in the extended reals carries a finite sum to the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The triple sum in its two orders, over the reals: the scale and the third factor move freely across
    the sums and the two sums commute. -/
theorem real_reorder {α β : Type*} (A : Finset α) (B : Finset β) (Q : α → ℝ) (K : β → α → ℝ) (V : β → ℝ)
    (c : ℝ) :
    (∑ d ∈ A, Q d * ∑ t ∈ B, K t d * V t) * c = ∑ t ∈ B, ((∑ d ∈ A, Q d * K t d) * c) * V t := by
  simp only [Finset.mul_sum, Finset.sum_mul]
  rw [Finset.sum_comm]
  refine Finset.sum_congr rfl fun t _ => Finset.sum_congr rfl fun d _ => ?_
  ring

/-- The projection of a real array by a real weight, over the reals. -/
def projR (x : Tok.Idx → ℝ) (w : Wt.Idx → ℝ) : Tok.Idx → ℝ :=
  fun i => ∑ d : Fin 1024, x (ix3 (i 0) (i 1) d) * w (ix2 (i 2) d)

/-- The projection of real arrays is real, with the expected value. -/
theorem proj_coe (x : Tok.Idx → ℝ) (w : Wt.Idx → ℝ) :
    proj (fun i => (x i : EReal)) (fun i => (w i : EReal)) = fun i => ((projR x w i : ℝ) : EReal) := by
  funext i
  simp only [proj, projR, coe_sum, EReal.coe_mul]

/-- For three real arrays the feature-matrix order and the score order give the same result. -/
theorem real_law (q k v : Tok.Idx → ℝ) (c : ℝ) :
    applyGram (fun i => (q i : EReal)) (gram (fun i => (k i : EReal)) (fun i => (v i : EReal))) (c : EReal)
      = applyScore (score (fun i => (q i : EReal)) (fun i => (k i : EReal)) (c : EReal))
          (fun i => (v i : EReal)) := by
  funext i
  show (∑ d : Fin 1024, (q (ix3 (i 0) (i 1) d) : EReal)
          * ∑ t : Fin 2048, (k (ix3 (i 0) t d) : EReal) * (v (ix3 (i 0) t (i 2)) : EReal)) * (c : EReal)
      = ∑ t : Fin 2048, ((∑ d : Fin 1024, (q (ix3 (i 0) (i 1) d) : EReal) * (k (ix3 (i 0) t d) : EReal))
          * (c : EReal)) * (v (ix3 (i 0) t (i 2)) : EReal)
  simp only [← EReal.coe_mul, ← coe_sum]
  exact congrArg _ (real_reorder Finset.univ Finset.univ _ (fun t d => k (ix3 (i 0) t d)) _ c)

end Law

/-- On arrays of real numbers the two orders of summation agree. -/
theorem viaGram_eq_viaScore (x : Tok.Idx → EReal) (wq wk wv : Wt.Idx → EReal) (c : ℝ)
    (hx : ∀ i, ∃ r : ℝ, x i = (r : EReal)) (hq : ∀ i, ∃ r : ℝ, wq i = (r : EReal))
    (hk : ∀ i, ∃ r : ℝ, wk i = (r : EReal)) (hv : ∀ i, ∃ r : ℝ, wv i = (r : EReal)) :
    viaGram x wq wk wv (c : EReal) = viaScore x wq wk wv (c : EReal) := by
  choose xr hxr using hx
  choose qr hqr using hq
  choose kr hkr using hk
  choose vr hvr using hv
  obtain rfl : x = fun i => (xr i : EReal) := funext hxr
  obtain rfl : wq = fun i => (qr i : EReal) := funext hqr
  obtain rfl : wk = fun i => (kr i : EReal) := funext hkr
  obtain rfl : wv = fun i => (vr i : EReal) := funext hvr
  unfold viaGram viaScore
  rw [Law.proj_coe, Law.proj_coe, Law.proj_coe]
  exact Law.real_law _ _ _ c

end Cert.LinAttn

end
-- ==== Proof.Finite.lean ====
import proofs.«130731_j87857851007669_1_alg».proof.Pre_finite_inputs
import proofs.«130731_j87857851007669_1_alg».proof.Proof.Gen.Pre_finite_inputs
import proofs.«130731_j87857851007669_1_alg».proof.Proof.Spec
import Idealize.ShloMosaic.PureOps.Ideal
import Idealize.ShloMosaic.Lib.ReduceAll
import Idealize.ShloMosaic.Lib.ValueIdx

noncomputable section

namespace Cert.LinAttn

open Idealize.ShloMosaic Idealize.ShloMosaic.ValueIdx

/-- The word `0x7F800000` read as a single-precision pattern is `+∞`. -/
theorem ofBits_inf : Ideal.ofBits .f32 0x7F800000#32 = (⊤ : EReal) := by
  simp [Ideal.ofBits, Ideal.ieee]

/-- An extended real whose absolute value `max x (-x)` is strictly below `+∞` is a real number:
    at `⊥` and at `⊤` the absolute value is `⊤`, and `⊤ < ⊤` is false. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- The same, entry by entry, for an array compared with the broadcast of the scalar `+∞`: where the
    comparison `|a| < +∞` holds at `i`, the entry `a i` is real. -/
theorem real_of_cmp_abs_inf {s z : Shape} (a : s.Idx → EReal) (dims : Fin z.rank → Fin s.rank)
    (hb : z.BroadcastsInDim s dims) (i : s.Idx)
    (h : cmpf (F := Ideal) (φ := .f32) .olt (Host.absf (F := Ideal) (φ := .f32) a)
        (broadcastInDim s dims hb (constant (F := Ideal) z .f32 0x7F800000#32)) i = 1#1) :
    ∃ r : ℝ, a i = (r : EReal) := by
  refine real_of_abs_lt_top (a i) ?_
  rw [← ofBits_inf]
  exact h

/-- A reduction by `and` over all axes of the comparisons `|a| < +∞` that comes out 1 says every entry of `a` is real. -/
theorem real_of_all_abs_inf {s z t u : Shape} {axes : List (Fin s.rank)} [Subsingleton t.Idx]
    (a : s.Idx → EReal) (dims : Fin z.rank → Fin s.rank) (hb : z.BroadcastsInDim s dims)
    (init : u.Idx → BitVec 1) (hr : s.ReducesTo axes t) (hu : 0 < u.numel) (j : t.Idx)
    (e : Host.reduce IntOp.andi
        (cmpf (F := Ideal) (φ := .f32) .olt (Host.absf (F := Ideal) (φ := .f32) a)
          (broadcastInDim s dims hb (constant (F := Ideal) z .f32 0x7F800000#32))) init hr hu j = 1#1)
    (i : s.Idx) : ∃ r : ℝ, a i = (r : EReal) :=
  real_of_cmp_abs_inf a dims hb i (Host.reduce_andi_all _ init hr hu j e i)

/-- The rank-0 shape has one index. -/
instance subsingleton_scalar_idx : Subsingleton Cert.Pre_finite_inputs.S_.Idx :=
  ⟨fun a b => funext fun d => d.elim0⟩

/-- Where the printed precondition is all ones, every entry of each of the four arrays is a real number. -/
theorem real_of_finite [Cert.Pre_finite_inputs.Facts] (a0 : Tok.Idx → EReal) (a1 a2 a3 : Wt.Idx → EReal)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  -- The precondition is the conjunction of four "all entries have |·| < +∞" tests; read it at the one index of its result.
  have h0 := congrFun h ValueIdx.ix0
  dsimp only [Cert.Pre_finite_inputs.fn, Cert.Pre_finite_inputs.fn_part1] at h0
  -- Split the three `and`s: each of the four tests is 1.
  obtain ⟨h012, e3⟩ := IntOp.andi_eq_one.1 h0
  obtain ⟨h01, e2⟩ := IntOp.andi_eq_one.1 h012
  obtain ⟨e0, e1⟩ := IntOp.andi_eq_one.1 h01
  exact ⟨fun i => real_of_all_abs_inf a0 _ _ _ _ _ _ e0 i, fun i => real_of_all_abs_inf a1 _ _ _ _ _ _ e1 i,
    fun i => real_of_all_abs_inf a2 _ _ _ _ _ _ e2 i, fun i => real_of_all_abs_inf a3 _ _ _ _ _ _ e3 i⟩

end Cert.LinAttn

end
-- ==== Proof.lean ====
/-
  Two programs compute single-head attention without the softmax on (batch, position, feature) tokens.
  The kernel projects the tokens to queries, keys and values, forms per batch the feature-by-feature matrix
  `G = Kᵀ V` and returns `(Q G) / 32`; the reference forms the position-by-position scores `(Q Kᵀ) / sqrt 1024`
  and returns their product with `V`. Over the extended reals a change of float format is the identity, so the
  kernel's half-precision copies of its intermediates are the intermediates themselves, and the two results are
  the same triple sum taken in two orders. Reordering a sum of products and moving the scale across it is sound
  for real numbers, which is what the precondition gives: every input entry is finite, hence real, and so are all
  the projections. The scales agree because `sqrt 1024 = 32`.

  The frames of the two kernel programs are the generated ones; the reference's is its generated run. The kernel's
  value is read off the same launch with the result buffer kept (`KernelRun`), walked back through the three
  regions and the reshapes between them (`Region0`, `Region1`, `Region2`, `Merge`, `Chain`); the reference's
  off its run one operation at a time (`RefValue`); `Law` joins the two and `Finite` opens the precondition.
-/
import proofs.«130731_j87857851007669_1_alg».proof.Defs
import proofs.«130731_j87857851007669_1_alg».proof.Proof.Gen.Kernel
import proofs.«130731_j87857851007669_1_alg».proof.Proof.Gen.Kernel.Skeleton
import proofs.«130731_j87857851007669_1_alg».proof.Proof.Gen.Kernel.Launch
import proofs.«130731_j87857851007669_1_alg».proof.Proof.Gen.Kernel.Points
import proofs.«130731_j87857851007669_1_alg».proof.Proof.Gen.Kernel.Frame
import proofs.«130731_j87857851007669_1_alg».proof.Proof.Gen.KernelIdeal
import proofs.«130731_j87857851007669_1_alg».proof.Proof.Gen.KernelIdeal.Skeleton
import proofs.«130731_j87857851007669_1_alg».proof.Proof.Gen.KernelIdeal.Launch
import proofs.«130731_j87857851007669_1_alg».proof.Proof.Gen.KernelIdeal.Points
import proofs.«130731_j87857851007669_1_alg».proof.Proof.Gen.KernelIdeal.Frame
import proofs.«130731_j87857851007669_1_alg».proof.Proof.Gen.ReferenceIdeal
import proofs.«130731_j87857851007669_1_alg».proof.Proof.Gen.Pre_finite_inputs
import proofs.«130731_j87857851007669_1_alg».proof.Proof.Gen.ReferenceIdeal.Run
import proofs.«130731_j87857851007669_1_alg».proof.Proof.Gen.ReferenceIdeal.Read
import proofs.«130731_j87857851007669_1_alg».proof.Proof.KernelRun
import proofs.«130731_j87857851007669_1_alg».proof.Proof.Chain
import proofs.«130731_j87857851007669_1_alg».proof.Proof.RefValue
import proofs.«130731_j87857851007669_1_alg».proof.Proof.Law
import proofs.«130731_j87857851007669_1_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the same function of arguments that agree: the kernel's at the
    feature-matrix order scaled by `1/32`, the reference's at the score order scaled by `1 / sqrt 1024`; on finite
    inputs the two orders agree. -/
theorem algebraic : Cert.algebraic_KernelIdeal_ReferenceIdeal := by
  intro m ρ m' ρ' hpre hagree
  refine ⟨fun c => Cert.KernelIdeal.Gen.W5 (F := Ideal) m ρ c (Proc.devRef .tc Cert.KernelIdeal.main_v10),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v8_eq (F := Ideal) _ _ _ _).trans ?_
  rw [Cert.ReferenceIdeal.RefValue.result]
  show _ = Cert.KernelIdeal.Gen.W5 (F := Ideal) m ρ c (Proc.devRef .tc Cert.KernelIdeal.main_v10)
  rw [Cert.KernelIdeal.Chain.result, Cert.LinAttn.scale_sqrt, Cert.LinAttn.scale_word]
  obtain ⟨h0, h1, h2, h3⟩ := Cert.LinAttn.real_of_finite _ _ _ _ (hpre c)
  exact (Cert.LinAttn.viaGram_eq_viaScore _ _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
